-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S4000x64 : Shape := ⟨2, ![4000, 64]⟩

abbrev nBuf : Space → Nat
  | .hbm => 66
  | .vmem => 14
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S100000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S4000x64, .f32⟩
  | .local _ .vmem, ⟨13, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S4000x64_S64x64_S4000x64_1_0_0_1_n_n_wf : DotDims.WF S4000x64 S64x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x64.size a ≤ S100000x64.size a
  hwx0_9 : ∀ i : grid0.Coords, EltTy.bits .f32 = 32 ∨ (Rect.block (s := S100000x64) S4000x64.size (cc0_transform_9 i) (hinb0_9 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v44) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v45) S4000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S_, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Combine.lean ====
/-
  The node update of a bidirectional neighbour-mean graph layer, as one function of its operands.

  For node features x, the two neighbour means ai (over incoming edges) and ao (over outgoing edges), three 64×64
  weight matrices and three bias rows, the updated feature of node p at channel q is

      (x·Ws + bs)(p,q) + ½ · (ai·Wi + bi)(p,q) + ½ · (ao·Wo + bo)(p,q),

  each product a sum over the 64 input channels κ, summed and scaled in exactly this grouping. The function is stated
  for any number of rows, so that one block of rows of the result is the same function of the same block of rows of
  the three row operands. Both programs compute it with this grouping, so no law of the extended reals beyond reading a
  matrix product as its sum is needed, and no operand need be finite.
-/
import Idealize.ShloMosaic.PureOps.Ideal.Laws
import Idealize.ShloMosaic.Lib.ValueIdx
import Idealize.ShloMosaic.Lib.ValueLayout
import Idealize.ShloMosaic.Lib.Pipeline.Value
import proofs.«100365_j27152783245350_1_alg».proof.Proof.LibPlainDot

noncomputable section

open scoped BigOperators

namespace Cert.Combine
open Idealize.ShloMosaic Idealize.ShloMosaic.ValueIdx Idealize.ShloMosaic.PlainDot

/-- The weight ½ of each neighbour term, as the extended real its f32 word denotes. -/
def half : EReal := Ideal.ofBits .f32 0x3F000000#32

/-- One linear layer at row p, channel q: the sum over the input channels κ of a (p, κ) · w (κ, q), plus the bias β q. -/
def lin {M : Nat} (a : FVec Ideal ⟨2, ![M, 64]⟩ .f32) (w : FVec Ideal ⟨2, ![64, 64]⟩ .f32) (β : Fin 64 → EReal)
    (p : Fin M) (q : Fin 64) : EReal :=
  (∑ κ : Fin 64, a (ix2 p κ) * w (ix2 κ q)) + β q

/-- The update at row p, channel q: the self layer plus half of each neighbour layer, grouped from the left. -/
def mix {M : Nat} (x ai ao : FVec Ideal ⟨2, ![M, 64]⟩ .f32) (ws wi wo : FVec Ideal ⟨2, ![64, 64]⟩ .f32)
    (βs βi βo : Fin 64 → EReal) (p : Fin M) (q : Fin 64) : EReal :=
  (lin x ws βs p q + half * lin ai wi βi p q) + half * lin ao wo βo p q

/-- The updated feature array: `mix` at every index (row `j 0`, channel `j 1`). -/
def update {M : Nat} (x ai ao : FVec Ideal ⟨2, ![M, 64]⟩ .f32) (ws wi wo : FVec Ideal ⟨2, ![64, 64]⟩ .f32)
    (βs βi βo : Fin 64 → EReal) : FVec Ideal ⟨2, ![M, 64]⟩ .f32 :=
  fun j => mix x ai ao ws wi wo βs βi βo (j 0) (j 1)

/-- The update does not look outside a row: if three row operands agree with three others on row p' resp. p, the
    values at those rows agree. -/
theorem mix_congr_rows {M M' : Nat} (x ai ao : FVec Ideal ⟨2, ![M, 64]⟩ .f32) (x' ai' ao' : FVec Ideal ⟨2, ![M', 64]⟩ .f32)
    (ws wi wo : FVec Ideal ⟨2, ![64, 64]⟩ .f32) (βs βi βo : Fin 64 → EReal) (p : Fin M) (p' : Fin M') (q : Fin 64)
    (hx : ∀ κ, x' (ix2 p' κ) = x (ix2 p κ)) (hi : ∀ κ, ai' (ix2 p' κ) = ai (ix2 p κ)) (ho : ∀ κ, ao' (ix2 p' κ) = ao (ix2 p κ)) :
    mix x' ai' ao' ws wi wo βs βi βo p' q = mix x ai ao ws wi wo βs βi βo p q := by
  unfold mix lin
  simp only [hx, hi, ho]

/-- A sum of two arrays of extended reals read at an index. -/
theorem addf_at {s : Shape} {φ : FTy} (x y : FVec Ideal s φ) (i : s.Idx) : addf x y i = x i + y i := rfl

/-- A product of two arrays of extended reals read at an index. -/
theorem mulf_at {s : Shape} {φ : FTy} (x y : FVec Ideal s φ) (i : s.Idx) : mulf x y i = x i * y i := rfl

/-- A matrix product on the accelerator into a zero accumulator, its operands first rounded to a narrower format (the
    identity on the extended reals), read at (p, q): the sum over the input channels. -/
theorem matmul_trunc_apply {M : Nat} {ψ : FTy} (d : DotDims ⟨2, ![M, 64]⟩ ⟨2, ![64, 64]⟩ ⟨2, ![M, 64]⟩) (hd : IsPlain d)
    (h : ψ.bits < FTy.f32.bits) (a : FVec Ideal ⟨2, ![M, 64]⟩ .f32) (w : FVec Ideal ⟨2, ![64, 64]⟩ .f32)
    (p : Fin M) (q : Fin 64) :
    matmul d none (truncf ψ a h) (truncf ψ w h) (constant ⟨2, ![M, 64]⟩ .f32 0x00000000#32) (ix2 p q)
      = ∑ κ : Fin 64, a (ix2 p κ) * w (ix2 κ q) :=
  matmul_zero_plain d hd none (truncf ψ a h) (truncf ψ w h) p q

/-- The host's matrix product read at (p, q): the same sum. -/
theorem dot_apply {M : Nat} (d : DotDims ⟨2, ![M, 64]⟩ ⟨2, ![64, 64]⟩ ⟨2, ![M, 64]⟩) (hd : IsPlain d)
    (a : FVec Ideal ⟨2, ![M, 64]⟩ .f32) (w : FVec Ideal ⟨2, ![64, 64]⟩ .f32) (p : Fin M) (q : Fin 64) :
    Host.dotGeneral d none a w (ix2 p q) = ∑ κ : Fin 64, a (ix2 p κ) * w (ix2 κ q) :=
  dotGeneral_plain d hd none HostSchedule.single a w p q

end Cert.Combine

end
-- ==== Proof.BlockValue.lean ====
/-
  One block of rows through the kernel body.

  The body loads a 4000-row block of each of the three row operands, the three whole weight matrices and the three
  bias rows, rounds the matrix operands to bf16 (the identity on the extended reals), multiplies on the matrix unit into
  a zero accumulator, adds the bias rows, and combines: self + ½·in + ½·out. Read at row p, channel q of the block,
  that is `Cert.Combine.mix` of the loaded blocks.
-/
import proofs.«100365_j27152783245350_1_alg».proof.Proof.Gen.KernelIdeal.Skeleton
import proofs.«100365_j27152783245350_1_alg».proof.Proof.Combine

noncomputable section

open scoped BigOperators

namespace Cert.KernelIdeal.Block
open Cert.KernelIdeal Cert.KernelIdeal.Gen Idealize.ShloMosaic Idealize.ShloMosaic.ValueIdx Idealize.ShloMosaic.PlainDot Cert.Combine

/-- The body's three products contract the left operand's channels with the right operand's rows, nothing batched. -/
theorem plain : IsPlain dot_S4000x64_S64x64_S4000x64_1_0_0_1_n_n := ⟨rfl, rfl, rfl, rfl, rfl, rfl⟩

/-- The body's result at row p, channel q of the block, from the nine loaded values. -/
theorem pay_apply (v0 v1 v3 : Vec Ideal S4000x64 .f32) (v8 v10 v12 : Vec Ideal S64x64 .f32) (v15 v20 v25 : Vec Ideal S1x64 .f32)
    (p : Fin 4000) (q : Fin 64) :
    k0_pay1 (F := Ideal) v0 v1 v3 v8 v10 v12 v15 v20 v25 (ix2 p q)
      = mix v0 v1 v3 v8 v10 v12 (fun q => v15 (ix2 (0 : Fin 1) q)) (fun q => v20 (ix2 (0 : Fin 1) q))
          (fun q => v25 (ix2 (0 : Fin 1) q)) p q := by
  unfold k0_pay1
  simp only [shapeCast_self, addf_at, mulf_at, broadcast_apply, matmul_trunc_apply _ plain, broadcastTo_1b_ab_apply,
    Ideal.ofBits_def]
  rfl

end Cert.KernelIdeal.Block

end
-- ==== Proof.KernelValue.lean ====
/-
  From blocks to the whole array: what the kernel's run leaves in its result.

  The grid has 25 points; point t handles rows 4000·t … 4000·t + 3999 of the three row operands and of the result,
  and sees the whole of each weight matrix and bias row. Block t of the result is the body's function of those blocks
  (`Cert.KernelIdeal.Block.pay_apply`), and that function looks at one row only, so block t of the result is block t
  of ONE whole-array function, `result`: the update of the operands as the region finds them. The 25 blocks cover the
  array, so the array ends holding `result`.
-/
import proofs.«100365_j27152783245350_1_alg».proof.Proof.Gen.KernelIdeal.Value
import proofs.«100365_j27152783245350_1_alg».proof.Proof.BlockValue

set_option Elab.async false

noncomputable section

open scoped BigOperators

namespace Cert.KernelIdeal.Whole
open Cert.KernelIdeal Cert.KernelIdeal.Gen Cert.KernelIdeal.Value Cert.KernelIdeal.Block
open Idealize.ShloMosaic Idealize.ShloMosaic.TcCoe Idealize.SL.Sem Idealize.ShloMosaic.ValueIdx Cert.Combine
open Idealize.ShloMosaic.Pipeline (Dat)

variable (m : (ℓ : Loc nD τ sig) → Buf (Elt Ideal) ℓ) (ρ : Dev nD → PrngReg)

/-- Every access of the body starts at the origin of its buffer. -/
theorem origin : (![0, 0] : Fin 2 → Nat) = fun _ => 0 := funext fun a => by fin_cases a <;> rfl

/-- The printed index maps, decided over the 25 points: each row operand's block moves with the result's, whose row
    block index is at most 24; every other block index is 0. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) ≤ 24 ∧ win0_9.index t (1 : Fin 2) = 0 :=
  (by decide +kernel : ∀ t : Fin grid0.N, _)

/-- Every row block of the result is some point's. -/
theorem idx_onto : ∀ b : Fin 25, ∃ t : Fin cfg0.N, win0_9.index t = ![b.val, 0] :=
  (by decide +kernel : ∀ b : Fin 25, ∃ t : Fin grid0.N, win0_9.index t = ![b.val, 0])

/-- The self weight matrix's block at any point is the whole matrix. -/
theorem read_wSelf (t : Fin cfg0.N) (W : FVec Ideal S64x64 .f32) : ((cfg0.win 3).blk t).view.read (Elt Ideal) W = W := by
  obtain ⟨-, -, -, -, -, -, e30, e31, e40, e41, e50, e51, e60, e61, e70, e71, e80, e81, -, -⟩ := idx_facts t
  funext (y : S64x64.Idx)
  show W (((cfg0.win 3).blk t).view.emb y) = W y
  have h : ((cfg0.win 3).blk t).view.emb y = y := by
    funext a; apply Fin.ext
    match a with
    | ⟨0, _⟩ => show win0_3.index t (0 : Fin 2) * 64 + 1 * (y 0).val = (y 0).val; rw [e30, Nat.zero_mul, Nat.zero_add, Nat.one_mul]
    | ⟨1, _⟩ => show win0_3.index t (1 : Fin 2) * 64 + 1 * (y 1).val = (y 1).val; rw [e31, Nat.zero_mul, Nat.zero_add, Nat.one_mul]
  rw [h]

/-- The incoming-edge weight matrix's block at any point is the whole matrix. -/
theorem read_wIn (t : Fin cfg0.N) (W : FVec Ideal S64x64 .f32) : ((cfg0.win 5).blk t).view.read (Elt Ideal) W = W := by
  obtain ⟨-, -, -, -, -, -, e30, e31, e40, e41, e50, e51, e60, e61, e70, e71, e80, e81, -, -⟩ := idx_facts t
  funext (y : S64x64.Idx)
  show W (((cfg0.win 5).blk t).view.emb y) = W y
  have h : ((cfg0.win 5).blk t).view.emb y = y := by
    funext a; apply Fin.ext
    match a with
    | ⟨0, _⟩ => show win0_5.index t (0 : Fin 2) * 64 + 1 * (y 0).val = (y 0).val; rw [e50, Nat.zero_mul, Nat.zero_add, Nat.one_mul]
    | ⟨1, _⟩ => show win0_5.index t (1 : Fin 2) * 64 + 1 * (y 1).val = (y 1).val; rw [e51, Nat.zero_mul, Nat.zero_add, Nat.one_mul]
  rw [h]

/-- The outgoing-edge weight matrix's block at any point is the whole matrix. -/
theorem read_wOut (t : Fin cfg0.N) (W : FVec Ideal S64x64 .f32) : ((cfg0.win 7).blk t).view.read (Elt Ideal) W = W := by
  obtain ⟨-, -, -, -, -, -, e30, e31, e40, e41, e50, e51, e60, e61, e70, e71, e80, e81, -, -⟩ := idx_facts t
  funext (y : S64x64.Idx)
  show W (((cfg0.win 7).blk t).view.emb y) = W y
  have h : ((cfg0.win 7).blk t).view.emb y = y := by
    funext a; apply Fin.ext
    match a with
    | ⟨0, _⟩ => show win0_7.index t (0 : Fin 2) * 64 + 1 * (y 0).val = (y 0).val; rw [e70, Nat.zero_mul, Nat.zero_add, Nat.one_mul]
    | ⟨1, _⟩ => show win0_7.index t (1 : Fin 2) * 64 + 1 * (y 1).val = (y 1).val; rw [e71, Nat.zero_mul, Nat.zero_add, Nat.one_mul]
  rw [h]

/-- The self bias row's block at any point is the whole row. -/
theorem read_bSelf (t : Fin cfg0.N) (W : FVec Ideal S1x64 .f32) : ((cfg0.win 4).blk t).view.read (Elt Ideal) W = W := by
  obtain ⟨-, -, -, -, -, -, e30, e31, e40, e41, e50, e51, e60, e61, e70, e71, e80, e81, -, -⟩ := idx_facts t
  funext (y : S1x64.Idx)
  show W (((cfg0.win 4).blk t).view.emb y) = W y
  have h : ((cfg0.win 4).blk t).view.emb y = y := by
    funext a; apply Fin.ext
    match a with
    | ⟨0, _⟩ => show win0_4.index t (0 : Fin 2) * 1 + 1 * (y 0).val = (y 0).val; rw [e40, Nat.zero_mul, Nat.zero_add, Nat.one_mul]
    | ⟨1, _⟩ => show win0_4.index t (1 : Fin 2) * 64 + 1 * (y 1).val = (y 1).val; rw [e41, Nat.zero_mul, Nat.zero_add, Nat.one_mul]
  rw [h]

/-- The incoming-edge bias row's block at any point is the whole row. -/
theorem read_bIn (t : Fin cfg0.N) (W : FVec Ideal S1x64 .f32) : ((cfg0.win 6).blk t).view.read (Elt Ideal) W = W := by
  obtain ⟨-, -, -, -, -, -, e30, e31, e40, e41, e50, e51, e60, e61, e70, e71, e80, e81, -, -⟩ := idx_facts t
  funext (y : S1x64.Idx)
  show W (((cfg0.win 6).blk t).view.emb y) = W y
  have h : ((cfg0.win 6).blk t).view.emb y = y := by
    funext a; apply Fin.ext
    match a with
    | ⟨0, _⟩ => show win0_6.index t (0 : Fin 2) * 1 + 1 * (y 0).val = (y 0).val; rw [e60, Nat.zero_mul, Nat.zero_add, Nat.one_mul]
    | ⟨1, _⟩ => show win0_6.index t (1 : Fin 2) * 64 + 1 * (y 1).val = (y 1).val; rw [e61, Nat.zero_mul, Nat.zero_add, Nat.one_mul]
  rw [h]

/-- The outgoing-edge bias row's block at any point is the whole row. -/
theorem read_bOut (t : Fin cfg0.N) (W : FVec Ideal S1x64 .f32) : ((cfg0.win 8).blk t).view.read (Elt Ideal) W = W := by
  obtain ⟨-, -, -, -, -, -, e30, e31, e40, e41, e50, e51, e60, e61, e70, e71, e80, e81, -, -⟩ := idx_facts t
  funext (y : S1x64.Idx)
  show W (((cfg0.win 8).blk t).view.emb y) = W y
  have h : ((cfg0.win 8).blk t).view.emb y = y := by
    funext a; apply Fin.ext
    match a with
    | ⟨0, _⟩ => show win0_8.index t (0 : Fin 2) * 1 + 1 * (y 0).val = (y 0).val; rw [e80, Nat.zero_mul, Nat.zero_add, Nat.one_mul]
    | ⟨1, _⟩ => show win0_8.index t (1 : Fin 2) * 64 + 1 * (y 1).val = (y 1).val; rw [e81, Nat.zero_mul, Nat.zero_add, Nat.one_mul]
  rw [h]

/-- Row p of the feature array's block at point t is array row r, when r is the array row of row p of the result's block. -/
theorem read_feat (t : Fin cfg0.N) (p : Fin 4000) (r : Fin 100000)
    (hr : r.val = win0_9.index t (0 : Fin 2) * 4000 + 1 * p.val) (κ : Fin 64) (A : FVec Ideal S100000x64 .f32) :
    ((cfg0.win 0).blk t).view.read (Elt Ideal) A (ix2 p κ) = A (ix2 r κ) := by
  obtain ⟨e00, e01, e10, e11, e20, e21, -, -, -, -, -, -, -, -, -, -, -, -, -, -⟩ := idx_facts t
  show A (((cfg0.win 0).blk t).view.emb (ix2 p κ)) = A (ix2 r κ)
  have h : ((cfg0.win 0).blk t).view.emb (ix2 p κ) = ix2 r κ := by
    funext a; apply Fin.ext
    match a with
    | ⟨0, _⟩ => show win0_0.index t (0 : Fin 2) * 4000 + 1 * p.val = r.val; rw [e00, hr]
    | ⟨1, _⟩ => show win0_0.index t (1 : Fin 2) * 64 + 1 * κ.val = κ.val; rw [e01, Nat.zero_mul, Nat.zero_add, Nat.one_mul]
  rw [h]

/-- The same for the incoming-edge mean array. -/
theorem read_meanIn (t : Fin cfg0.N) (p : Fin 4000) (r : Fin 100000)
    (hr : r.val = win0_9.index t (0 : Fin 2) * 4000 + 1 * p.val) (κ : Fin 64) (A : FVec Ideal S100000x64 .f32) :
    ((cfg0.win 1).blk t).view.read (Elt Ideal) A (ix2 p κ) = A (ix2 r κ) := by
  obtain ⟨e00, e01, e10, e11, e20, e21, -, -, -, -, -, -, -, -, -, -, -, -, -, -⟩ := idx_facts t
  show A (((cfg0.win 1).blk t).view.emb (ix2 p κ)) = A (ix2 r κ)
  have h : ((cfg0.win 1).blk t).view.emb (ix2 p κ) = ix2 r κ := by
    funext a; apply Fin.ext
    match a with
    | ⟨0, _⟩ => show win0_1.index t (0 : Fin 2) * 4000 + 1 * p.val = r.val; rw [e10, hr]
    | ⟨1, _⟩ => show win0_1.index t (1 : Fin 2) * 64 + 1 * κ.val = κ.val; rw [e11, Nat.zero_mul, Nat.zero_add, Nat.one_mul]
  rw [h]

/-- The same for the outgoing-edge mean array. -/
theorem read_meanOut (t : Fin cfg0.N) (p : Fin 4000) (r : Fin 100000)
    (hr : r.val = win0_9.index t (0 : Fin 2) * 4000 + 1 * p.val) (κ : Fin 64) (A : FVec Ideal S100000x64 .f32) :
    ((cfg0.win 2).blk t).view.read (Elt Ideal) A (ix2 p κ) = A (ix2 r κ) := by
  obtain ⟨e00, e01, e10, e11, e20, e21, -, -, -, -, -, -, -, -, -, -, -, -, -, -⟩ := idx_facts t
  show A (((cfg0.win 2).blk t).view.emb (ix2 p κ)) = A (ix2 r κ)
  have h : ((cfg0.win 2).blk t).view.emb (ix2 p κ) = ix2 r κ := by
    funext a; apply Fin.ext
    match a with
    | ⟨0, _⟩ => show win0_2.index t (0 : Fin 2) * 4000 + 1 * p.val = r.val; rw [e20, hr]
    | ⟨1, _⟩ => show win0_2.index t (1 : Fin 2) * 64 + 1 * κ.val = κ.val; rw [e21, Nat.zero_mul, Nat.zero_add, Nat.one_mul]
  rw [h]

/-- Block t of the result, for ANY contents of the nine operand arrays: the body's function of the operands' blocks at
    point t is block t of the update of the whole arrays. -/
theorem block_eq (t : Fin cfg0.N) (A0 A1 A2 : FVec Ideal S100000x64 .f32) (W3 W5 W7 : FVec Ideal S64x64 .f32)
    (B4 B6 B8 : FVec Ideal S1x64 .f32) :
    (cfg0.win 9).cut (grid0.coords t) (k0_pay1 (F := Ideal)
        (((cfg0.win 0).blk t).view.read (Elt Ideal) A0) (((cfg0.win 1).blk t).view.read (Elt Ideal) A1)
        (((cfg0.win 2).blk t).view.read (Elt Ideal) A2) (((cfg0.win 3).blk t).view.read (Elt Ideal) W3)
        (((cfg0.win 5).blk t).view.read (Elt Ideal) W5) (((cfg0.win 7).blk t).view.read (Elt Ideal) W7)
        (((cfg0.win 4).blk t).view.read (Elt Ideal) B4) (((cfg0.win 6).blk t).view.read (Elt Ideal) B6)
        (((cfg0.win 8).blk t).view.read (Elt Ideal) B8))
      = ((cfg0.win 9).blk t).view.read (Elt Ideal) (update (M := 100000) A0 A1 A2 W3 W5 W7
          (fun q => B4 (ix2 (0 : Fin 1) q)) (fun q => B6 (ix2 (0 : Fin 1) q)) (fun q => B8 (ix2 (0 : Fin 1) q))) := by
  rw [read_wSelf, read_wIn, read_wOut, read_bSelf, read_bIn, read_bOut]
  obtain ⟨-, -, -, -, -, -, -, -, -, -, -, -, -, -, -, -, -, -, e90, e91⟩ := idx_facts t
  funext (j : S4000x64.Idx)
  obtain ⟨p, q, rfl⟩ : ∃ (p : Fin 4000) (q : Fin 64), j = ix2 p q := ⟨j 0, j 1, eq_ix2 j⟩
  show k0_pay1 (F := Ideal) (((cfg0.win 0).blk t).view.read (Elt Ideal) A0) (((cfg0.win 1).blk t).view.read (Elt Ideal) A1)
        (((cfg0.win 2).blk t).view.read (Elt Ideal) A2) W3 W5 W7 B4 B6 B8 (ix2 p q)
      = update (M := 100000) A0 A1 A2 W3 W5 W7 (fun q => B4 (ix2 (0 : Fin 1) q)) (fun q => B6 (ix2 (0 : Fin 1) q))
          (fun q => B8 (ix2 (0 : Fin 1) q)) (((cfg0.win 9).blk t).view.emb (ix2 p q))
  rw [pay_apply]
  generalize hE : ((cfg0.win 9).blk t).view.emb (ix2 p q) = E
  have hE0 : (E 0).val = win0_9.index t (0 : Fin 2) * 4000 + 1 * p.val := by rw [← hE]; rfl
  have hE1 : E 1 = q := by
    apply Fin.ext
    rw [← hE]
    show win0_9.index t (1 : Fin 2) * 64 + 1 * q.val = q.val
    rw [e91, Nat.zero_mul, Nat.zero_add, Nat.one_mul]
  unfold update
  rw [hE1]
  exact mix_congr_rows A0 A1 A2 _ _ _ W3 W5 W7 _ _ _ (E 0) p q
    (fun κ => read_feat t p (E 0) hE0 κ A0) (fun κ => read_meanIn t p (E 0) hE0 κ A1)
    (fun κ => read_meanOut t p (E 0) hE0 κ A2)

/-- The whole result: the update of the operands as the region finds them. -/
def result (c : Dev nD) : FVec Ideal S100000x64 .f32 :=
  update (M := 100000) (V m c main_arg0) (V m c main_v22) (V m c main_v41) (V m c main_arg2) (V m c main_arg4) (V m c main_arg6)
    (fun q => (V m c main_v42 : S1x64.Idx → EReal) (ix2 (0 : Fin 1) q)) (fun q => (V m c main_v43 : S1x64.Idx → EReal) (ix2 (0 : Fin 1) q))
    (fun q => (V m c main_v44 : S1x64.Idx → EReal) (ix2 (0 : Fin 1) q))

/-- WHAT POINT t WRITES BACK is block t of `result`. -/
theorem flushed_eq (c : Dev nD) (t : Fin cfg0.N) :
    (dats m 0 c).flushed 9 t = ((cfg0.win 9).blk t).view.read (Elt Ideal) (result m c) := by
  rw [flushed9]
  unfold out0_9
  rw [View.canon_unit_zero origin]
  simp only [View.ld_unit_zero (S := S4000x64) origin, View.ld_unit_zero (S := S64x64) origin,
    View.ld_unit_zero (S := S1x64) origin]
  exact block_eq t (V m c main_arg0) (V m c main_v22) (V m c main_v41) (V m c main_arg2) (V m c main_arg4) (V m c main_arg6)
    (V m c main_v42) (V m c main_v43) (V m c main_v44)

/-- An index of the array is in point t's block iff each coordinate is in the block's range on its axis. -/
theorem mem_blk (t : Fin cfg0.N) (i : S100000x64.Idx) :
    i ∈ ((cfg0.win 9).blk t).view.set ↔ ∀ a : Fin 2, win0_9.index t a * S4000x64.size a ≤ (i a).val
      ∧ (i a).val < win0_9.index t a * S4000x64.size a + S4000x64.size a := by
  show i ∈ ((View.whole main_v45).slice (win0_9.rect t)).set ↔ _
  rw [View.set_slice_whole, Rect.mem_set_unit]
  exact Iff.rfl

/-- The row block that holds array row iv is block iv / 4000. -/
theorem row_mem (a iv : Nat) (h : a = iv / 4000) : a * 4000 ≤ iv ∧ iv < a * 4000 + 4000 := by omega
/-- Every channel is in the one column block. -/
theorem col_mem (a iv : Nat) (h : a = 0) (hi : iv < 64) : a * 64 ≤ iv ∧ iv < a * 64 + 64 := by omega

/-- The 25 blocks cover the array: row r is in block r / 4000. -/
theorem cover (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  obtain ⟨t, ht⟩ := idx_onto ⟨(i 0).val / 4000, by omega⟩
  have q0 : win0_9.index t (0 : Fin 2) = (i 0).val / 4000 := congrFun ht 0
  have q1 : win0_9.index t (1 : Fin 2) = 0 := congrFun ht 1
  refine ⟨t, flush0_9 t, ?_⟩
  rw [mem_blk]
  intro a
  match a with
  | ⟨0, _⟩ => exact row_mem _ _ q0
  | ⟨1, _⟩ => exact col_mem _ _ q1 hi1

/-- THE ARRAY after the run is `result`. -/
theorem final (c : Dev nD) : (dats m 0 c).arrAt 9 cfg0.N = result m c :=
  (dats m 0 c).arrAt_eq_of_cover 9 (result m c) (fun t _ => flushed_eq m c t) cover

/-- The kernel's run: it ends with the result array at `result` and the arguments unchanged. -/
theorem run : θ_run defs (onTc (τ := τ) (main (F := Ideal))) ⟨m, fun _ => 0, ρ⟩ fun r => ∀ c : Dev nD,
      r.2.mem ((c : Thread nD τ).loc main_v45) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Whole

end
-- ==== Proof.RefValue.lean ====
/-
  The reference's result array is the update function of its operands.

  The reference forms the two neighbour means on the host, then (x·Ws + bs) + ½·(ai·Wi + bi) + ½·(ao·Wo + bo) with
  the host's matrix product and the biases laid out over all rows. Read at row p, channel q this is
  `Cert.Combine.mix`, with the neighbour means left as the host terms that produce them.
-/
import proofs.«100365_j27152783245350_1_alg».proof.Proof.Gen.ReferenceIdeal.Read
import proofs.«100365_j27152783245350_1_alg».proof.Proof.Combine

noncomputable section

open scoped BigOperators

namespace Cert.ReferenceIdeal.RefValue
open Cert.ReferenceIdeal Cert.ReferenceIdeal.Gen Cert.ReferenceIdeal.Read Idealize.ShloMosaic Idealize.ShloMosaic.ValueIdx
open Idealize.ShloMosaic.PlainDot Cert.Combine

/-- The reference's three products contract the left operand's channels with the right operand's rows, nothing batched. -/
theorem plain : IsPlain dot_S100000x64_S64x64_S100000x64_1_0_0_1_n_n := ⟨rfl, rfl, rfl, rfl, rfl, rfl⟩

/-- The self bias, laid out as one row and then over all rows, read at (p, q). -/
theorem bias_self_apply (b : FVec Ideal S64 .f32) (p : Fin 100000) (q : Fin 64) :
    val_main_v44 (F := Ideal) b (ix2 p q) = b (ix1 q) := by
  rw [val_main_v44_apply, val_main_v43_apply]
  exact congrArg b (funext fun a => match a with | ⟨0, _⟩ => rfl)

/-- The incoming-edge bias read at (p, q). -/
theorem bias_in_apply (b : FVec Ideal S64 .f32) (p : Fin 100000) (q : Fin 64) :
    val_main_v48 (F := Ideal) b (ix2 p q) = b (ix1 q) := by
  rw [val_main_v48_apply, val_main_v47_apply]
  exact congrArg b (funext fun a => match a with | ⟨0, _⟩ => rfl)

/-- The outgoing-edge bias read at (p, q). -/
theorem bias_out_apply (b : FVec Ideal S64 .f32) (p : Fin 100000) (q : Fin 64) :
    val_main_v55 (F := Ideal) b (ix2 p q) = b (ix1 q) := by
  rw [val_main_v55_apply, val_main_v54_apply]
  exact congrArg b (funext fun a => match a with | ⟨0, _⟩ => rfl)

/-- The first weight ½, broadcast, read anywhere. -/
theorem half_in_apply (i : S100000x64.Idx) : val_main_v50 (F := Ideal) i = half := by
  rw [val_main_v50_apply, val_main_cst_10_apply]; rfl

/-- The second weight ½, broadcast, read anywhere. -/
theorem half_out_apply (i : S100000x64.Idx) : val_main_v57 (F := Ideal) i = half := by
  rw [val_main_v57_apply, val_main_cst_11_apply]; rfl

/-- The reference's result is the update of the features, the two host-computed neighbour means, the weights and
    the biases. -/
theorem result_eq (x0 : FVec Ideal S100000x64 .f32) (x1 : IVec S2x1600000 32) (x2 : FVec Ideal S64x64 .f32)
    (x3 : FVec Ideal S64 .f32) (x4 : FVec Ideal S64x64 .f32) (x5 : FVec Ideal S64 .f32) (x6 : FVec Ideal S64x64 .f32)
    (x7 : FVec Ideal S64 .f32) :
    val_main_v59 (F := Ideal) x0 x1 x2 x3 x4 x5 x6 x7
      = update x0 (val_main_v22 (F := Ideal) x0 x1) (val_main_v41 (F := Ideal) x0 x1) x2 x4 x6
          (fun q => x3 (ix1 q)) (fun q => x5 (ix1 q)) (fun q => x7 (ix1 q)) := by
  funext j
  obtain ⟨p, q, rfl⟩ : ∃ (p : Fin 100000) (q : Fin 64), j = ix2 p q := ⟨j 0, j 1, eq_ix2 j⟩
  have el42 : ∀ k, lidx_main_v42 (ix2 p q) k = ix2 p k := fun k => funext fun a => match a with | ⟨0, _⟩ => rfl | ⟨1, _⟩ => rfl
  have er42 : ∀ k, ridx_main_v42 (ix2 p q) k = ix2 k q := fun k => funext fun a => match a with | ⟨0, _⟩ => rfl | ⟨1, _⟩ => rfl
  have el46 : ∀ k, lidx_main_v46 (ix2 p q) k = ix2 p k := fun k => funext fun a => match a with | ⟨0, _⟩ => rfl | ⟨1, _⟩ => rfl
  have er46 : ∀ k, ridx_main_v46 (ix2 p q) k = ix2 k q := fun k => funext fun a => match a with | ⟨0, _⟩ => rfl | ⟨1, _⟩ => rfl
  have el53 : ∀ k, lidx_main_v53 (ix2 p q) k = ix2 p k := fun k => funext fun a => match a with | ⟨0, _⟩ => rfl | ⟨1, _⟩ => rfl
  have er53 : ∀ k, ridx_main_v53 (ix2 p q) k = ix2 k q := fun k => funext fun a => match a with | ⟨0, _⟩ => rfl | ⟨1, _⟩ => rfl
  rw [val_main_v59_apply, val_main_v52_apply, val_main_v58_apply, val_main_v45_apply, val_main_v51_apply,
    val_main_v56_apply, val_main_v49_apply, val_main_v42_apply, val_main_v46_apply, val_main_v53_apply,
    bias_self_apply, bias_in_apply, bias_out_apply, half_in_apply, half_out_apply]
  simp only [el42, er42, el46, er46, el53, er53]
  unfold update mix lin
  rfl

end Cert.ReferenceIdeal.RefValue

end
-- ==== Proof.HostHead.lean ====
/-
  The region's operands that the host computes before it: the two neighbour means and the three bias rows.

  Both programs form the neighbour means with the same host operations in the same order (slice the edge list, wrap
  negative indices, gather the rows, scatter-add them and a count of ones, clamp the count below by one, divide), so
  what the region finds in the two mean arrays is, term for term, what the reference's own stages compute. A bias row
  as the region finds it is the rank-1 bias array given one leading unit axis.
-/
import proofs.«100365_j27152783245350_1_alg».proof.Proof.Gen.KernelIdeal.Frame
import proofs.«100365_j27152783245350_1_alg».proof.Proof.Gen.ReferenceIdeal.Read
import Idealize.ShloMosaic.Lib.ValueLayout

set_option Elab.async false

noncomputable section

namespace Cert.KernelIdeal.Head
open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The self bias row as the region finds it, read at its one row. -/
theorem bSelf_apply (c : Dev nD) (q : Fin 64) :
    (V m c main_v42 : S1x64.Idx → EReal) (ix2 (0 : Fin 1) q) = m ((c : Thread nD τ).loc main_arg3) (ix1 q) := by
  have e : (V m c main_v42 : S1x64.Idx → EReal) = shapeCast S1x64 (m ((c : Thread nD τ).loc main_arg3)) shapeCasts_S64_S1x64 := by
    dsimp only [V, hostOps0]; after_results_simp; rfl
  rw [e]
  exact shapeCast_a_1a_apply _ _ _ _

/-- The incoming-edge bias row as the region finds it, read at its one row. -/
theorem bIn_apply (c : Dev nD) (q : Fin 64) :
    (V m c main_v43 : S1x64.Idx → EReal) (ix2 (0 : Fin 1) q) = m ((c : Thread nD τ).loc main_arg5) (ix1 q) := by
  have e : (V m c main_v43 : S1x64.Idx → EReal) = shapeCast S1x64 (m ((c : Thread nD τ).loc main_arg5)) shapeCasts_S64_S1x64 := by
    dsimp only [V, hostOps0]; after_results_simp; rfl
  rw [e]
  exact shapeCast_a_1a_apply _ _ _ _

/-- The outgoing-edge bias row as the region finds it, read at its one row. -/
theorem bOut_apply (c : Dev nD) (q : Fin 64) :
    (V m c main_v44 : S1x64.Idx → EReal) (ix2 (0 : Fin 1) q) = m ((c : Thread nD τ).loc main_arg7) (ix1 q) := by
  have e : (V m c main_v44 : S1x64.Idx → EReal) = shapeCast S1x64 (m ((c : Thread nD τ).loc main_arg7)) shapeCasts_S64_S1x64 := by
    dsimp only [V, hostOps0]; after_results_simp; rfl
  rw [e]
  exact shapeCast_a_1a_apply _ _ _ _

/-- The incoming-edge mean as the region finds it is the reference's own stage for it, of the features and the edge list. -/
theorem meanIn_eq (c : Dev nD) :
    (V m c main_v22 : S100000x64.Idx → EReal)
      = Cert.ReferenceIdeal.Read.val_main_v22 (F := Ideal) (m ((c : Thread nD τ).loc main_arg0)) (m ((c : Thread nD τ).loc main_arg1)) := by
  dsimp only [V, hostOps0]; after_results_simp; rfl

/-- The outgoing-edge mean as the region finds it is the reference's own stage for it. -/
theorem meanOut_eq (c : Dev nD) :
    (V m c main_v41 : S100000x64.Idx → EReal)
      = Cert.ReferenceIdeal.Read.val_main_v41 (F := Ideal) (m ((c : Thread nD τ).loc main_arg0)) (m ((c : Thread nD τ).loc main_arg1)) := by
  dsimp only [V, hostOps0]; after_results_simp; rfl

end Cert.KernelIdeal.Head

end
-- ==== Proof.lean ====
/-
  The certificate of a bidirectional neighbour-mean graph layer: a tiled kernel for the dense node update against its
  plain reference.

  Both programs first form, on the host and with the same operations, the mean of each node's incoming neighbours and
  the mean of its outgoing neighbours. The reference then computes (x·Ws + bs) + ½·(ai·Wi + bi) + ½·(ao·Wo + bo) on whole
  arrays; the kernel computes the same expression on 25 blocks of 4000 rows, with the three products on the matrix unit
  after a rounding of their operands that is the identity on the extended reals. The update of a row looks only at that
  row of the three row operands, so block t of the kernel's result is block t of the whole-array update
  (Proof/KernelValue.lean), the blocks cover the array, the reference's result is the same update (Proof/RefValue.lean),
  and the operands the kernel's region finds are the reference's own stages (Proof/HostHead.lean). The two sides group
  their sums and products alike, so no operand need be finite and the precondition is not used.
-/
import proofs.«100365_j27152783245350_1_alg».proof.Defs
import proofs.«100365_j27152783245350_1_alg».proof.Proof.Gen.Kernel
import proofs.«100365_j27152783245350_1_alg».proof.Proof.Gen.Kernel.Skeleton
import proofs.«100365_j27152783245350_1_alg».proof.Proof.Gen.Kernel.Launch
import proofs.«100365_j27152783245350_1_alg».proof.Proof.Gen.Kernel.Points
import proofs.«100365_j27152783245350_1_alg».proof.Proof.Gen.Kernel.Frame
import proofs.«100365_j27152783245350_1_alg».proof.Proof.Gen.KernelIdeal
import proofs.«100365_j27152783245350_1_alg».proof.Proof.Gen.KernelIdeal.Skeleton
import proofs.«100365_j27152783245350_1_alg».proof.Proof.Gen.KernelIdeal.Launch
import proofs.«100365_j27152783245350_1_alg».proof.Proof.Gen.KernelIdeal.Points
import proofs.«100365_j27152783245350_1_alg».proof.Proof.Gen.KernelIdeal.Frame
import proofs.«100365_j27152783245350_1_alg».proof.Proof.Gen.ReferenceIdeal
import proofs.«100365_j27152783245350_1_alg».proof.Proof.Gen.KernelIdeal.Value
import proofs.«100365_j27152783245350_1_alg».proof.Proof.Gen.ReferenceIdeal.Run
import proofs.«100365_j27152783245350_1_alg».proof.Proof.Gen.ReferenceIdeal.Read
import proofs.«100365_j27152783245350_1_alg».proof.Proof.Gen.Pre_finite_inputs
import proofs.«100365_j27152783245350_1_alg».proof.Proof.KernelValue
import proofs.«100365_j27152783245350_1_alg».proof.Proof.RefValue
import proofs.«100365_j27152783245350_1_alg».proof.Proof.HostHead
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- The idealized kernel runs and leaves its arguments as they were. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's are the same update of
    the same operands. -/
theorem algebraic : Cert.algebraic_KernelIdeal_ReferenceIdeal := by
  intro m ρ m' ρ' _ hagree
  refine ⟨Cert.KernelIdeal.Whole.result m, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v59_eq, Cert.ReferenceIdeal.RefValue.result_eq, h0, h1, h2, h3, h4, h5, h6, h7]
  unfold Cert.KernelIdeal.Whole.result
  rw [Cert.KernelIdeal.Gen.V_main_arg0, Cert.KernelIdeal.Gen.V_main_arg2, Cert.KernelIdeal.Gen.V_main_arg4,
    Cert.KernelIdeal.Gen.V_main_arg6, Cert.KernelIdeal.Head.meanIn_eq, Cert.KernelIdeal.Head.meanOut_eq]
  exact congr (congr (congrArg (Cert.Combine.update _ _ _ _ _ _) (funext (Cert.KernelIdeal.Head.bSelf_apply m c)).symm)
    (funext (Cert.KernelIdeal.Head.bIn_apply m c)).symm) (funext (Cert.KernelIdeal.Head.bOut_apply m c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
